-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S3x256 : Shape := ⟨2, ![3, 256]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S256x128 .f32) (main_arg3 : FVec F S256 .f32) (main_arg4 : FVec F S3x256 .f32) (main_arg5 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256 .f32 := Host.absf main_arg4
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S3x256 : Shape := ⟨2, ![3, 256]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S1x3 : Shape := ⟨2, ![1, 3]⟩
abbrev S50000x3 : Shape := ⟨2, ![50000, 3]⟩
abbrev S2000x128 : Shape := ⟨2, ![2000, 128]⟩
abbrev S2000x3 : Shape := ⟨2, ![2000, 3]⟩
abbrev S2000x256 : Shape := ⟨2, ![2000, 256]⟩

abbrev nBuf : Space → Nat
  | .hbm => 38
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S3x256, .f32⟩
  | .hbm, ⟨5, _⟩ => ⟨S3, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S1x256, .f32⟩
  | .hbm, ⟨36, _⟩ => ⟨S1x3, .f32⟩
  | .hbm, ⟨37, _⟩ => ⟨S50000x3, .f32⟩
  | .local _ .vmem, ⟨0, _⟩ => ⟨S2000x128, .f32⟩
  | .local _ .vmem, ⟨1, _⟩ => ⟨S2000x128, .f32⟩
  | .local _ .vmem, ⟨2, _⟩ => ⟨S256x128, .f32⟩
  | .local _ .vmem, ⟨3, _⟩ => ⟨S1x256, .f32⟩
  | .local _ .vmem, ⟨4, _⟩ => ⟨S3x256, .f32⟩
  | .local _ .vmem, ⟨5, _⟩ => ⟨S1x3, .f32⟩
  | .local _ .vmem, ⟨6, _⟩ => ⟨S2000x3, .f32⟩
  | .local _ .vmem, ⟨7, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  shapeCasts_S3_S1x3 : S3.ShapeCasts S1x3
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S3x256_S3x256_0_0 : ∀ a, (![0, 0] : Fin 2 → Nat) a + S3x256.size a ≤ S3x256.size a
  h_S3x256 : 0 < S3x256.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S256x128_S2000x256_1_1_0_0_n_n_wf : DotDims.WF S2000x128 S256x128 S2000x256 [1] [1] [0] [0] [] []
  dot_S2000x256_S3x256_S2000x3_1_1_0_0_n_n_wf : DotDims.WF S2000x256 S3x256 S2000x3 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256.size a ≤ S3x256.size a
  hwx0_3 : ∀ i : grid0.Coords, EltTy.bits .f32 = 32 ∨ (Rect.block (s := S3x256) S3x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x3.size a ≤ S50000x3.size a
  hwx0_5 : ∀ i : grid0.Coords, EltTy.bits .f32 = 32 ∨ (Rect.block (s := S50000x3) S2000x3.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf
def dot_S2000x256_S3x256_S2000x3_1_1_0_0_n_n : DotDims S2000x256 S3x256 S2000x3 where
  lhsContracting := [1]
  rhsContracting := [1]
  lhsNonContracting := [0]
  rhsNonContracting := [0]
  lhsBatch := []
  rhsBatch := []
  wf := dot_S2000x256_S3x256_S2000x3_1_1_0_0_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S3x256 : Shape := ⟨2, ![3, 256]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S256x3 : Shape := ⟨2, ![256, 3]⟩
abbrev S50000x3 : Shape := ⟨2, ![50000, 3]⟩
abbrev S1x3 : Shape := ⟨2, ![1, 3]⟩

abbrev nBuf : Space → Nat
  | .hbm => 45
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S3x256, .f32⟩
  | .hbm, ⟨5, _⟩ => ⟨S3, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S128x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S256x3, .f32⟩
  | .hbm, ⟨41, _⟩ => ⟨S50000x3, .f32⟩
  | .hbm, ⟨42, _⟩ => ⟨S1x3, .f32⟩
  | .hbm, ⟨43, _⟩ => ⟨S50000x3, .f32⟩
  | .hbm, ⟨44, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S3x256_S256x3_1_0 : S3x256.Transposes [1, 0] S256x3
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  dot_S50000x256_S256x3_S50000x3_1_0_0_1_n_n_wf : DotDims.WF S50000x256 S256x3 S50000x3 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x3_S50000x3_1_0_0_1_n_n : DotDims S50000x256 S256x3 S50000x3 where
  lhsContracting := [1]
  rhsContracting := [0]
  lhsNonContracting := [0]
  rhsNonContracting := [1]
  lhsBatch := []
  rhsBatch := []
  wf := dot_S50000x256_S256x3_S50000x3_1_0_0_1_n_n_wf

class Facts : Prop extends Facts₀ where

variable [Facts]
-- ==== Proof.TwoLayer.lean ====
/-
  The function both programs compute from the aggregated node features.

  Write `a` for the mean-aggregated features (one row of 128 numbers per node), `W1`, `b1` for the first linear
  layer (256 rows of 128 weights, one bias per row) and `W2`, `b2` for the second (3 rows of 256 weights, one bias
  per row). Node `r`'s hidden unit `k` is the inner product of `a`'s row `r` with `W1`'s row `k`, plus `b1 k`; its
  output `j` is the inner product of the hidden row with `W2`'s row `j`, plus `b2 j`. Both weight matrices are used
  row against row, which is the product with the transposed matrix. Everything is read on the extended reals,
  where a finite sum does not depend on the order of its terms, so no side condition is needed to state it.
-/
import Idealize.ShloMosaic.PureOps.Ideal
import Idealize.ShloMosaic.Lib.ValueIdx

noncomputable section

namespace Cert.TwoLayer

open Idealize.ShloMosaic Idealize.ShloMosaic.ValueIdx

/-- Hidden unit `k` of node `r`: row `r` of the features against row `k` of the first weights, plus the bias. -/
def hidden (a : (⟨2, ![50000, 128]⟩ : Shape).Idx → EReal) (W1 : (⟨2, ![256, 128]⟩ : Shape).Idx → EReal)
    (b1 : (⟨1, ![256]⟩ : Shape).Idx → EReal) (r : Fin 50000) (k : Fin 256) : EReal :=
  (∑ l : Fin 128, a (ix2 r l) * W1 (ix2 k l)) + b1 (ix1 k)

/-- Output `i = (r, j)`: node `r`'s hidden row against row `j` of the second weights, plus the bias. -/
def out (a : (⟨2, ![50000, 128]⟩ : Shape).Idx → EReal) (W1 : (⟨2, ![256, 128]⟩ : Shape).Idx → EReal)
    (b1 : (⟨1, ![256]⟩ : Shape).Idx → EReal) (W2 : (⟨2, ![3, 256]⟩ : Shape).Idx → EReal)
    (b2 : (⟨1, ![3]⟩ : Shape).Idx → EReal) : (⟨2, ![50000, 3]⟩ : Shape).Idx → EReal :=
  fun i => (∑ k : Fin 256, hidden a W1 b1 (i 0) k * W2 (ix2 (i 1) k)) + b2 (ix1 (i 1))

/-- The same output from the five facts a tile of rows supplies: whatever arrays `x0 … x4` a program holds, if at
    the places the formula reads they are the features' row `i 0`, the two weight matrices and the two biases, then
    the formula over them is `out` at `i`. -/
theorem out_of_reads (a : (⟨2, ![50000, 128]⟩ : Shape).Idx → EReal) (W1 : (⟨2, ![256, 128]⟩ : Shape).Idx → EReal)
    (b1 : (⟨1, ![256]⟩ : Shape).Idx → EReal) (W2 : (⟨2, ![3, 256]⟩ : Shape).Idx → EReal)
    (b2 : (⟨1, ![3]⟩ : Shape).Idx → EReal) (i : (⟨2, ![50000, 3]⟩ : Shape).Idx)
    (f0 : Fin 128 → EReal) (f1 : Fin 256 → Fin 128 → EReal) (f2 : Fin 256 → EReal) (f3 : Fin 256 → EReal) (f4 : EReal)
    (h0 : ∀ l, f0 l = a (ix2 (i 0) l)) (h1 : ∀ k l, f1 k l = W1 (ix2 k l)) (h2 : ∀ k, f2 k = b1 (ix1 k))
    (h3 : ∀ k, f3 k = W2 (ix2 (i 1) k)) (h4 : f4 = b2 (ix1 (i 1))) :
    (∑ k : Fin 256, ((∑ l : Fin 128, f0 l * f1 k l) + f2 k) * f3 k) + f4 = out a W1 b1 W2 b2 i := by
  unfold out hidden
  rw [h4]
  refine congrArg (· + b2 (ix1 (i 1))) (Finset.sum_congr rfl fun k _ => ?_)
  rw [h2 k, h3 k]
  refine congrArg (fun s => (s + b1 (ix1 k)) * W2 (ix2 (i 1) k)) (Finset.sum_congr rfl fun l _ => ?_)
  rw [h0 l, h1 k l]

end Cert.TwoLayer

end
-- ==== Proof.RefValue.lean ====
/-
  The reference, read down to the same function.

  After the aggregation the reference transposes each weight matrix, takes the full product over all 50000 nodes,
  and adds the bias broadcast down the rows, twice. Entry `(l, k)` of a transposed matrix is entry `(k, l)` of
  the matrix, so each product is again a sum of row-against-row terms, and a bias row broadcast down the rows is the
  bias at the column. The aggregation stage itself is left closed: it enters only as the array `a`.
-/
import proofs.«119824_j2070174236908_1_alg».proof.Proof.Gen.ReferenceIdeal.Read
import proofs.«119824_j2070174236908_1_alg».proof.Proof.TwoLayer

noncomputable section

namespace Cert.ReferenceIdeal.RefValue

open Cert.ReferenceIdeal Cert.ReferenceIdeal.Gen Cert.ReferenceIdeal.Read Idealize.ShloMosaic Idealize.ShloMosaic.ValueIdx

/-- The reference's result, as a function of its six arguments, is the two-layer function of the aggregated
    features (its own stage for them) and the four parameter arrays. -/
theorem result_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S3x256, .f32⟩ : BufTy).Contents (Elt Ideal)) (x5 : (⟨S3, .f32⟩ : BufTy).Contents (Elt Ideal)) :
    val_main_v32 (F := Ideal) x0 x1 x2 x3 x4 x5
      = Cert.TwoLayer.out (val_main_v22 (F := Ideal) x0 x1) x2 x3 x4 x5 := by
  funext i
  rw [val_main_v32_apply, val_main_v29_apply, val_main_v31_apply, val_main_v30_apply]
  unfold Cert.TwoLayer.out Cert.TwoLayer.hidden
  refine congrArg₂ (· + ·) (Finset.sum_congr rfl fun k _ => ?_) (congrArg x5 ?_)
  · rw [val_main_v27_apply, val_main_v24_apply, val_main_v26_apply, val_main_v25_apply, val_main_v28_apply]
    refine congrArg₂ (· * ·) (congrArg₂ (· + ·) (Finset.sum_congr rfl fun l _ => ?_) (congrArg x3 ?_)) (congrArg x4 ?_)
    · rw [val_main_v23_apply]
      refine congrArg₂ (· * ·) (congrArg (val_main_v22 (F := Ideal) x0 x1) ?_) (congrArg x2 ?_)
      · funext a; match a with
        | ⟨0, _⟩ => rfl
        | ⟨1, _⟩ => rfl
      · funext a; match a with
        | ⟨0, _⟩ => rfl
        | ⟨1, _⟩ => rfl
    · funext a; match a with
      | ⟨0, _⟩ => rfl
    · funext a; match a with
      | ⟨0, _⟩ => rfl
      | ⟨1, _⟩ => rfl
  · funext a; match a with
    | ⟨0, _⟩ => rfl

end Cert.ReferenceIdeal.RefValue

end
-- ==== Proof.HostSide.lean ====
/-
  The arrays the host hands to the tiled stage.

  Before the tiled stage starts, the host has aggregated the node features (gather the source rows, add them up
  per destination node, count the edges per destination, divide by the count or by one) and has re-laid each bias
  vector as a one-row matrix. The one-row matrix's entry `(0, k)` is the vector's entry `k`. The aggregation is
  the same chain of operations, with the same constants, in the kernel's program and in the reference: it is never
  opened here, only identified with the reference's stage of the same name.
-/
import proofs.«119824_j2070174236908_1_alg».proof.Proof.Gen.KernelIdeal.Frame
import proofs.«119824_j2070174236908_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The first bias as the tiled stage finds it: the argument vector re-laid as one row. -/
theorem first_bias_array (c : Dev nD) :
    (V m c main_v23 : S1x256.Idx → EReal) = shapeCast S1x256 (m ((c : Thread nD τ).loc main_arg3)) shapeCasts_S256_S1x256 := by
  dsimp only [Gen.V, Gen.hostOps0]; after_results; rfl

/-- Its entry `(0, k)` is the vector's entry `k`. -/
theorem first_bias_row (c : Dev nD) (k : Fin 256) :
    (V m c main_v23 : S1x256.Idx → EReal) (ix2 (0 : Fin 1) k) = m ((c : Thread nD τ).loc main_arg3) (ix1 k) := by
  rw [first_bias_array]
  exact shapeCast_apply _ shapeCasts_S256_S1x256 (ix2 (0 : Fin 1) k) (ix1 k)
    (by rewrite [Shape.rowMajor_val_one, Shape.rowMajor_val_two]; show k.val = 0 * 256 + k.val; omega)

/-- The second bias as the tiled stage finds it. -/
theorem second_bias_array (c : Dev nD) :
    (V m c main_v24 : S1x3.Idx → EReal) = shapeCast S1x3 (m ((c : Thread nD τ).loc main_arg5)) shapeCasts_S3_S1x3 := by
  dsimp only [Gen.V, Gen.hostOps0]; after_results; rfl

/-- Its entry `(0, j)` is the vector's entry `j`. -/
theorem second_bias_row (c : Dev nD) (j : Fin 3) :
    (V m c main_v24 : S1x3.Idx → EReal) (ix2 (0 : Fin 1) j) = m ((c : Thread nD τ).loc main_arg5) (ix1 j) := by
  rw [second_bias_array]
  exact shapeCast_apply _ shapeCasts_S3_S1x3 (ix2 (0 : Fin 1) j) (ix1 j)
    (by rewrite [Shape.rowMajor_val_one, Shape.rowMajor_val_two]; show j.val = 0 * 3 + j.val; omega)

set_option maxHeartbeats 2000000 in
/-- The aggregated features as the tiled stage finds them are the reference's aggregation stage of the same two
    arguments: the two programs apply the same operations with the same constants, one after the other. -/
theorem aggregated_array (c : Dev nD) :
    (V m c main_v22 : S50000x128.Idx → EReal)
      = Cert.ReferenceIdeal.Read.val_main_v22 (F := Ideal) (m ((c : Thread nD τ).loc main_arg0)) (m ((c : Thread nD τ).loc main_arg1)) := by
  dsimp only [Gen.V, Gen.hostOps0]; after_results; rfl

end Cert.KernelIdeal.HostSide

end
-- ==== Proof.TilePayload.lean ====
/-
  One tile of rows, read at an index.

  The kernel handles 2000 nodes at a time. From a tile `x0` of aggregated features (2000 rows of 128), the whole
  first-layer weights `x1` (256 rows of 128), the first bias as a one-row matrix `x2`, the whole second-layer
  weights `x3` (3 rows of 256) and the second bias as a one-row matrix `x4`, it stores, at row `p` and column `q`,

      Σ k, (Σ l, x0[p, l] · x1[k, l] + x2[0, k]) · x3[q, k]  +  x4[0, q].

  Both matrix products contract the second axis of each operand (a product with the transposed weights) into a
  zero accumulator, so on the extended reals each is the plain sum over that axis; the changes of float format in
  between are the identity there; a one-row matrix broadcast down the rows is its entry in row 0.
-/
import proofs.«119824_j2070174236908_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## Where each product reads its operands

For a product of a [rows, n] operand with a [cols, n] operand contracted over `n`, output entry `(r, c)` and
contraction position `l` read the left operand at `(r, l)` and the right operand at `(c, l)`. -/

theorem first_lhs_0 (i : S2000x256.Idx) (q : dot_S2000x128_S256x128_S2000x256_1_1_0_0_n_n.contr.Idx) :
    (dot_S2000x128_S256x128_S2000x256_1_1_0_0_n_n.lhsIdx i q 0).val = (i 0).val := by
  unfold DotDims.lhsIdx
  rw [dif_neg (show ¬(0 : Fin S2000x128.rank) ∈ dot_S2000x128_S256x128_S2000x256_1_1_0_0_n_n.lhsBatch by decide), dif_pos (show (0 : Fin S2000x128.rank) ∈ dot_S2000x128_S256x128_S2000x256_1_1_0_0_n_n.lhsNonContracting by decide)]
  rfl
theorem first_lhs_1 (i : S2000x256.Idx) (q : dot_S2000x128_S256x128_S2000x256_1_1_0_0_n_n.contr.Idx) :
    (dot_S2000x128_S256x128_S2000x256_1_1_0_0_n_n.lhsIdx i q 1).val = (q ⟨0, by decide⟩).val :=
  dot_S2000x128_S256x128_S2000x256_1_1_0_0_n_n.lhsIdx_val_of_single rfl i q
theorem first_rhs_0 (i : S2000x256.Idx) (q : dot_S2000x128_S256x128_S2000x256_1_1_0_0_n_n.contr.Idx) :
    (dot_S2000x128_S256x128_S2000x256_1_1_0_0_n_n.rhsIdx i q 0).val = (i 1).val := by
  unfold DotDims.rhsIdx
  rw [dif_neg (show ¬(0 : Fin S256x128.rank) ∈ dot_S2000x128_S256x128_S2000x256_1_1_0_0_n_n.rhsBatch by decide), dif_pos (show (0 : Fin S256x128.rank) ∈ dot_S2000x128_S256x128_S2000x256_1_1_0_0_n_n.rhsNonContracting by decide)]
  rfl
theorem first_rhs_1 (i : S2000x256.Idx) (q : dot_S2000x128_S256x128_S2000x256_1_1_0_0_n_n.contr.Idx) :
    (dot_S2000x128_S256x128_S2000x256_1_1_0_0_n_n.rhsIdx i q 1).val = (q ⟨0, by decide⟩).val :=
  dot_S2000x128_S256x128_S2000x256_1_1_0_0_n_n.rhsIdx_val_of_single rfl i q

theorem second_lhs_0 (i : S2000x3.Idx) (q : dot_S2000x256_S3x256_S2000x3_1_1_0_0_n_n.contr.Idx) :
    (dot_S2000x256_S3x256_S2000x3_1_1_0_0_n_n.lhsIdx i q 0).val = (i 0).val := by
  unfold DotDims.lhsIdx
  rw [dif_neg (show ¬(0 : Fin S2000x256.rank) ∈ dot_S2000x256_S3x256_S2000x3_1_1_0_0_n_n.lhsBatch by decide), dif_pos (show (0 : Fin S2000x256.rank) ∈ dot_S2000x256_S3x256_S2000x3_1_1_0_0_n_n.lhsNonContracting by decide)]
  rfl
theorem second_lhs_1 (i : S2000x3.Idx) (q : dot_S2000x256_S3x256_S2000x3_1_1_0_0_n_n.contr.Idx) :
    (dot_S2000x256_S3x256_S2000x3_1_1_0_0_n_n.lhsIdx i q 1).val = (q ⟨0, by decide⟩).val :=
  dot_S2000x256_S3x256_S2000x3_1_1_0_0_n_n.lhsIdx_val_of_single rfl i q
theorem second_rhs_0 (i : S2000x3.Idx) (q : dot_S2000x256_S3x256_S2000x3_1_1_0_0_n_n.contr.Idx) :
    (dot_S2000x256_S3x256_S2000x3_1_1_0_0_n_n.rhsIdx i q 0).val = (i 1).val := by
  unfold DotDims.rhsIdx
  rw [dif_neg (show ¬(0 : Fin S3x256.rank) ∈ dot_S2000x256_S3x256_S2000x3_1_1_0_0_n_n.rhsBatch by decide), dif_pos (show (0 : Fin S3x256.rank) ∈ dot_S2000x256_S3x256_S2000x3_1_1_0_0_n_n.rhsNonContracting by decide)]
  rfl
theorem second_rhs_1 (i : S2000x3.Idx) (q : dot_S2000x256_S3x256_S2000x3_1_1_0_0_n_n.contr.Idx) :
    (dot_S2000x256_S3x256_S2000x3_1_1_0_0_n_n.rhsIdx i q 1).val = (q ⟨0, by decide⟩).val :=
  dot_S2000x256_S3x256_S2000x3_1_1_0_0_n_n.rhsIdx_val_of_single rfl i q

/-! ## The two products and the two biases at an index -/

/-- The first product at `(r, c)`: row `r` of the tile against row `c` of the weights, summed over the 128 features. -/
theorem first_product (y0 : FVec Ideal S2000x128 .bf16) (y1 : FVec Ideal S256x128 .bf16) (r : Fin 2000) (c : Fin 256) :
    matmul dot_S2000x128_S256x128_S2000x256_1_1_0_0_n_n none y0 y1 (constant (F := Ideal) S2000x256 .f32 0x00000000#32) (ix2 r c)
      = ∑ l : Fin 128, y0 (ix2 r l) * y1 (ix2 c l) := by
  simp only [Idealize.ShloMosaic.matmul]
  rw [Ideal.matmul_constant_zero_apply, ← Equiv.sum_comp (contrEquiv1 dot_S2000x128_S256x128_S2000x256_1_1_0_0_n_n 128 rfl rfl).symm]
  refine Finset.sum_congr rfl fun l _ => ?_
  have hl := contrEquiv1_symm_val dot_S2000x128_S256x128_S2000x256_1_1_0_0_n_n 128 rfl rfl l
  have el : dot_S2000x128_S256x128_S2000x256_1_1_0_0_n_n.lhsIdx (ix2 r c) ((contrEquiv1 dot_S2000x128_S256x128_S2000x256_1_1_0_0_n_n 128 rfl rfl).symm l) = ix2 r l := funext fun a => Fin.ext (by
    match a with
    | ⟨0, _⟩ => exact first_lhs_0 _ _
    | ⟨1, _⟩ => exact (first_lhs_1 _ _).trans hl)
  have er : dot_S2000x128_S256x128_S2000x256_1_1_0_0_n_n.rhsIdx (ix2 r c) ((contrEquiv1 dot_S2000x128_S256x128_S2000x256_1_1_0_0_n_n 128 rfl rfl).symm l) = ix2 c l := funext fun a => Fin.ext (by
    match a with
    | ⟨0, _⟩ => exact first_rhs_0 _ _
    | ⟨1, _⟩ => exact (first_rhs_1 _ _).trans hl)
  rw [el, er]

/-- The second product at `(r, c)`: hidden row `r` against row `c` of the weights, summed over the 256 hidden units. -/
theorem second_product (y0 : FVec Ideal S2000x256 .bf16) (y1 : FVec Ideal S3x256 .bf16) (r : Fin 2000) (c : Fin 3) :
    matmul dot_S2000x256_S3x256_S2000x3_1_1_0_0_n_n none y0 y1 (constant (F := Ideal) S2000x3 .f32 0x00000000#32) (ix2 r c)
      = ∑ l : Fin 256, y0 (ix2 r l) * y1 (ix2 c l) := by
  simp only [Idealize.ShloMosaic.matmul]
  rw [Ideal.matmul_constant_zero_apply, ← Equiv.sum_comp (contrEquiv1 dot_S2000x256_S3x256_S2000x3_1_1_0_0_n_n 256 rfl rfl).symm]
  refine Finset.sum_congr rfl fun l _ => ?_
  have hl := contrEquiv1_symm_val dot_S2000x256_S3x256_S2000x3_1_1_0_0_n_n 256 rfl rfl l
  have el : dot_S2000x256_S3x256_S2000x3_1_1_0_0_n_n.lhsIdx (ix2 r c) ((contrEquiv1 dot_S2000x256_S3x256_S2000x3_1_1_0_0_n_n 256 rfl rfl).symm l) = ix2 r l := funext fun a => Fin.ext (by
    match a with
    | ⟨0, _⟩ => exact second_lhs_0 _ _
    | ⟨1, _⟩ => exact (second_lhs_1 _ _).trans hl)
  have er : dot_S2000x256_S3x256_S2000x3_1_1_0_0_n_n.rhsIdx (ix2 r c) ((contrEquiv1 dot_S2000x256_S3x256_S2000x3_1_1_0_0_n_n 256 rfl rfl).symm l) = ix2 c l := funext fun a => Fin.ext (by
    match a with
    | ⟨0, _⟩ => exact second_rhs_0 _ _
    | ⟨1, _⟩ => exact (second_rhs_1 _ _).trans hl)
  rw [el, er]

/-- The first bias, a one-row matrix broadcast to every row of the tile, is its entry in row 0. -/
theorem first_bias (v : FVec Ideal S1x256 .f32) (r : Fin 2000) (c : Fin 256) :
    broadcastTo S2000x256 v broadcasts_S1x256_S2000x256 (ix2 r c) = v (ix2 (0 : Fin 1) c) :=
  broadcastTo_apply v broadcasts_S1x256_S2000x256 (ix2 r c) (ix2 (0 : Fin 1) c) (fun a => match a with
    | ⟨0, _⟩ => by show 0 = if (1 : Nat) = 1 then 0 else _; rw [if_pos rfl]
    | ⟨1, _⟩ => by show c.val = if (256 : Nat) = 1 then 0 else c.val; rw [if_neg (by decide)])

/-- The second bias likewise. -/
theorem second_bias (v : FVec Ideal S1x3 .f32) (r : Fin 2000) (c : Fin 3) :
    broadcastTo S2000x3 v broadcasts_S1x3_S2000x3 (ix2 r c) = v (ix2 (0 : Fin 1) c) :=
  broadcastTo_apply v broadcasts_S1x3_S2000x3 (ix2 r c) (ix2 (0 : Fin 1) c) (fun a => match a with
    | ⟨0, _⟩ => by show 0 = if (1 : Nat) = 1 then 0 else _; rw [if_pos rfl]
    | ⟨1, _⟩ => by show c.val = if (3 : Nat) = 1 then 0 else c.val; rw [if_neg (by decide)])

/-! ## The stored value at an index -/

/-- What the tile's one store writes at row `p`, column `q`, from the five arrays the body loads. -/
theorem payload_apply (x0 : FVec Ideal S2000x128 .f32) (x1 : FVec Ideal S256x128 .f32) (x2 : FVec Ideal S1x256 .f32)
    (x3 : FVec Ideal S3x256 .f32) (x4 : FVec Ideal S1x3 .f32) (p : Fin 2000) (q : Fin 3) :
    k0_pay1 (F := Ideal) x0 x1 x2 x3 x4 (ix2 p q)
      = (∑ k : Fin 256, ((∑ l : Fin 128, x0 (ix2 p l) * x1 (ix2 k l)) + x2 (ix2 (0 : Fin 1) k)) * x3 (ix2 q k))
        + x4 (ix2 (0 : Fin 1) q) := by
  unfold k0_pay1
  simp only [shapeCast_self]
  rw [addf_apply, second_product, second_bias]
  refine congrArg (· + x4 (ix2 (0 : Fin 1) q)) (Finset.sum_congr rfl fun k _ => ?_)
  rw [truncf_apply, truncf_apply, addf_apply, first_product, first_bias]
  rfl

end Cert.KernelIdeal.Tile

end
-- ==== Proof.WholeArray.lean ====
/-
  From tiles to the whole result.

  The tiled stage has 25 steps; step `t` reads rows `2000·t … 2000·t + 1999` of the aggregated features and writes
  the same rows of the result; the weights and biases are read whole at every step. So what step `t` writes is the
  two-layer function restricted to its rows, and since the 25 row ranges cover all 50000 rows, the result array
  ends as the two-layer function of the aggregated features and the four parameter arrays.
-/
import proofs.«119824_j2070174236908_1_alg».proof.Proof.Gen.KernelIdeal.Value
import proofs.«119824_j2070174236908_1_alg».proof.Proof.TwoLayer
import proofs.«119824_j2070174236908_1_alg».proof.Proof.TilePayload
import proofs.«119824_j2070174236908_1_alg».proof.Proof.HostSide

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The two-layer function of the aggregated features as the tiled stage finds them and of the four parameter
    arguments. -/
abbrev result (c : Dev nD) : S50000x3.Idx → EReal :=
  Cert.TwoLayer.out (V m c main_v22) (m ((c : Thread nD τ).loc main_arg2)) (m ((c : Thread nD τ).loc main_arg3))
    (m ((c : Thread nD τ).loc main_arg4)) (m ((c : Thread nD τ).loc main_arg5))

theorem origin : (![0, 0] : Fin 2 → Nat) = fun _ => 0 := funext fun a => by fin_cases a <;> rfl

/-- Which block each operand is on at step `t`: the features' row block is the result's; every other block index,
    and both column block indices, are zero. -/
theorem block_indices : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every one of the 25 row blocks is some step's. -/
theorem row_block_onto : ∀ b : Fin 25, ∃ t : Fin cfg0.N, win0_5.index t = ![b.val, 0] :=
  (by decide +kernel : ∀ b : Fin 25, ∃ t : Fin grid0.N, win0_5.index t = ![b.val, 0])

/-- Writing back a whole tile: the part of the tile that is transferred is all of it. -/
theorem whole_tile_back (t : Fin cfg0.N) (X : FVec Ideal S2000x3 .f32) :
    (cfg0.win 5).cut (grid0.coords t) X = X := rfl

/-- Reading the result's row block of step `t` off an array `G`: `G` at the block's place in the array. -/
theorem read_result_block (t : Fin cfg0.N) (G : S50000x3.Idx → EReal) :
    ((cfg0.win 5).blk t).view.read (Elt Ideal) G = fun j : S2000x3.Idx => G (((cfg0.win 5).blk t).view.emb j) := rfl

/-- The tile's stored value over ANY five arrays the operands' blocks are read from: if the one-row matrices
    `B1`, `B2` hold the bias vectors `b1`, `b2`, step `t`'s value at `j` is the two-layer function of the arrays at
    `j`'s place in the result. It holds of any arrays whatever: how the host produced them plays no part. -/
theorem tile_value (t : Fin cfg0.N) (A : S50000x128.Idx → EReal) (W1 : S256x128.Idx → EReal) (B1 : S1x256.Idx → EReal)
    (W2 : S3x256.Idx → EReal) (B2 : S1x3.Idx → EReal) (b1 : S256.Idx → EReal) (b2 : S3.Idx → EReal)
    (hb1 : ∀ k : Fin 256, B1 (ix2 (0 : Fin 1) k) = b1 (ix1 k)) (hb2 : ∀ j : Fin 3, B2 (ix2 (0 : Fin 1) j) = b2 (ix1 j))
    (j : S2000x3.Idx) :
    k0_pay1 (F := Ideal) (((cfg0.win 0).blk t).view.read (Elt Ideal) A) (((cfg0.win 1).blk t).view.read (Elt Ideal) W1) (((cfg0.win 2).blk t).view.read (Elt Ideal) B1)
        (((cfg0.win 3).blk t).view.read (Elt Ideal) W2) (((cfg0.win 4).blk t).view.read (Elt Ideal) B2) j
      = Cert.TwoLayer.out A W1 b1 W2 b2 (((cfg0.win 5).blk t).view.emb j) := by
  obtain ⟨e00, e01, e10, e11, e20, e21, e30, e31, e40, e41, e51⟩ := block_indices t
  obtain ⟨p, q, rfl⟩ : ∃ (p : Fin 2000) (q : Fin 3), j = ix2 p q := ⟨j 0, j 1, eq_ix2 j⟩
  refine (Tile.payload_apply (((cfg0.win 0).blk t).view.read (Elt Ideal) A) (((cfg0.win 1).blk t).view.read (Elt Ideal) W1) (((cfg0.win 2).blk t).view.read (Elt Ideal) B1)
    (((cfg0.win 3).blk t).view.read (Elt Ideal) W2) (((cfg0.win 4).blk t).view.read (Elt Ideal) B2) p q).trans ?_
  refine Cert.TwoLayer.out_of_reads A W1 b1 W2 b2 (((cfg0.win 5).blk t).view.emb (ix2 p q))
    (fun l => (((cfg0.win 0).blk t).view.read (Elt Ideal) A) (ix2 p l)) (fun k l => (((cfg0.win 1).blk t).view.read (Elt Ideal) W1) (ix2 k l))
    (fun k => (((cfg0.win 2).blk t).view.read (Elt Ideal) B1) (ix2 (0 : Fin 1) k)) (fun k => (((cfg0.win 3).blk t).view.read (Elt Ideal) W2) (ix2 q k))
    ((((cfg0.win 4).blk t).view.read (Elt Ideal) B2) (ix2 (0 : Fin 1) q)) ?_ ?_ ?_ ?_ ?_
  · intro l
    show A (((cfg0.win 0).blk t).view.emb (ix2 p l)) = A _
    refine congrArg A (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 128 + 1 * l.val = l.val; omega
  · intro k l
    show W1 (((cfg0.win 1).blk t).view.emb (ix2 k l)) = W1 _
    refine congrArg W1 (funext fun a => Fin.ext ?_)
    match a with
    | ⟨0, _⟩ => show win0_1.index t (0 : Fin 2) * 256 + 1 * k.val = k.val; omega
    | ⟨1, _⟩ => show win0_1.index t (1 : Fin 2) * 128 + 1 * l.val = l.val; omega
  · intro k
    show B1 (((cfg0.win 2).blk t).view.emb (ix2 (0 : Fin 1) k)) = _
    refine (congrArg B1 (funext fun a => Fin.ext ?_)).trans (hb1 k)
    match a with
    | ⟨0, _⟩ => show win0_2.index t (0 : Fin 2) * 1 + 1 * 0 = 0; omega
    | ⟨1, _⟩ => show win0_2.index t (1 : Fin 2) * 256 + 1 * k.val = k.val; omega
  · intro k
    show W2 (((cfg0.win 3).blk t).view.emb (ix2 q k)) = W2 _
    refine congrArg W2 (funext fun a => Fin.ext ?_)
    match a with
    | ⟨0, _⟩ => show win0_3.index t (0 : Fin 2) * 3 + 1 * q.val = win0_5.index t (1 : Fin 2) * 3 + 1 * q.val; omega
    | ⟨1, _⟩ => show win0_3.index t (1 : Fin 2) * 256 + 1 * k.val = k.val; omega
  · show B2 (((cfg0.win 4).blk t).view.emb (ix2 (0 : Fin 1) q)) = _
    refine (congrArg B2 (funext fun a => Fin.ext ?_)).trans ((hb2 q).trans (congrArg b2 (funext fun a => Fin.ext ?_)))
    · match a with
      | ⟨0, _⟩ => show win0_4.index t (0 : Fin 2) * 1 + 1 * 0 = 0; omega
      | ⟨1, _⟩ => show win0_4.index t (1 : Fin 2) * 3 + 1 * q.val = q.val; omega
    · match a with
      | ⟨0, _⟩ => show q.val = win0_5.index t (1 : Fin 2) * 3 + 1 * q.val; omega

/-- The aggregated features are the array the tiled stage's first operand is read from. -/
theorem features_operand (c : Dev nD) :
    (V m c (Pipeline.arrRef spec0 0) : S50000x128.Idx → EReal) = V m c main_v22 := rfl

/-- What step `t` writes back is the two-layer function on that step's rows. -/
theorem tile_written (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero origin]
  simp only [View.ld_unit_zero (S := S2000x128) origin, View.ld_unit_zero (S := S256x128) origin,
    View.ld_unit_zero (S := S1x256) origin, View.ld_unit_zero (S := S3x256) origin, View.ld_unit_zero (S := S1x3) origin]
  refine (whole_tile_back t _).trans ?_
  refine Eq.trans ?_ (read_result_block t (result m c)).symm
  funext j
  unfold iblk
  refine (tile_value t (V m c (Pipeline.arrRef spec0 0)) (V m c (Pipeline.arrRef spec0 1)) (V m c (Pipeline.arrRef spec0 2))
    (V m c (Pipeline.arrRef spec0 3)) (V m c (Pipeline.arrRef spec0 4)) (m ((c : Thread nD τ).loc main_arg3)) (m ((c : Thread nD τ).loc main_arg5))
    (HostSide.first_bias_row m c) (HostSide.second_bias_row m c) j).trans ?_
  have hW1 : (V m c (Pipeline.arrRef spec0 1) : S256x128.Idx → EReal) = (m ((c : Thread nD τ).loc main_arg2)) := V_main_arg2 m c
  have hW2 : (V m c (Pipeline.arrRef spec0 3) : S3x256.Idx → EReal) = (m ((c : Thread nD τ).loc main_arg4)) := V_main_arg4 m c
  rw [hW1, hW2, features_operand m c]

/-- An index of the result is among step `t`'s rows iff each coordinate is in the block's range on its axis. -/
theorem mem_tile (t : Fin cfg0.N) (i : S50000x3.Idx) :
    i ∈ ((cfg0.win 5).blk t).view.set ↔ ∀ a : Fin 2, win0_5.index t a * S2000x3.size a ≤ (i a).val ∧ (i a).val < win0_5.index t a * S2000x3.size a + S2000x3.size a := by
  show i ∈ ((View.whole main_v25).slice (win0_5.rect t)).set ↔ _
  rw [View.set_slice_whole, Rect.mem_set_unit]
  exact Iff.rfl

/-- Every index of the result is among some step's rows: row `r` belongs to step `r / 2000`. -/
theorem tiles_cover (i : S50000x3.Idx) :
    ∃ t : Fin cfg0.N, (cfg0.win 5).flush t = true ∧ i ∈ ((cfg0.win 5).blk t).view.set := by
  have hi0 : (i 0).val < 50000 := (i 0).isLt
  have hi1 : (i 1).val < 3 := (i 1).isLt
  obtain ⟨t, ht⟩ := row_block_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_tile]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 3 ≤ (i 1).val ∧ (i 1).val < win0_5.index t (1 : Fin 2) * 3 + 3; omega

/-- The result array after the tiled stage is the two-layer function. -/
theorem final (c : Dev nD) : (dats m 0 c).arrAt 5 cfg0.N = result m c :=
  (dats m 0 c).arrAt_eq_of_cover 5 (result m c) (fun t _ => tile_written m c t) tiles_cover

/-- The kernel's run: it ends with the result array at the two-layer function and its arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Whole

end
-- ==== Proof.lean ====
/-
  Mean aggregation over a graph's edges followed by two linear layers: the kernel against its plain reference.

  Both programs first aggregate: for each edge they fetch the source node's feature row, add the rows up per
  destination node, count the edges per destination node, and divide each sum by the count (or by one for a node
  with no incoming edge). This stage is the same sequence of operations with the same constants in both programs,
  so it is never opened: it enters only as the array `a` of aggregated features, one row of 128 numbers for each of
  the 50000 nodes.

  Then both apply two linear layers,

      out[r, j] = Σ k, (Σ l, a[r, l] · W1[k, l] + b1[k]) · W2[j, k] + b2[j].

  The reference transposes each weight matrix and takes one product over all nodes. The kernel works on 2000 nodes
  at a time, contracts each weight matrix along its second axis directly, rounds intermediate values to a shorter
  float format (the identity on the extended reals), and accumulates into zero. Neither product is split along the
  contracted axis, every term of every sum is the same product of the same two factors in the same order, and a
  finite sum on the extended reals does not depend on the order of its terms: the two results agree entry by
  entry, and the precondition that the inputs are finite is not needed for it.

  The pieces: `TwoLayer` states the function; `RefValue` reads the reference's last stages down to it;
  `TilePayload` reads one 2000-row tile of the kernel at an index; `HostSide` says what the arrays handed to the
  tiled stage hold; `WholeArray` goes from the 25 tiles to the whole result.
-/
import proofs.«119824_j2070174236908_1_alg».proof.Defs
import proofs.«119824_j2070174236908_1_alg».proof.Proof.Gen.Kernel
import proofs.«119824_j2070174236908_1_alg».proof.Proof.Gen.Kernel.Skeleton
import proofs.«119824_j2070174236908_1_alg».proof.Proof.Gen.Kernel.Launch
import proofs.«119824_j2070174236908_1_alg».proof.Proof.Gen.Kernel.Points
import proofs.«119824_j2070174236908_1_alg».proof.Proof.Gen.Kernel.Frame
import proofs.«119824_j2070174236908_1_alg».proof.Proof.Gen.KernelIdeal
import proofs.«119824_j2070174236908_1_alg».proof.Proof.Gen.KernelIdeal.Skeleton
import proofs.«119824_j2070174236908_1_alg».proof.Proof.Gen.KernelIdeal.Launch
import proofs.«119824_j2070174236908_1_alg».proof.Proof.Gen.KernelIdeal.Points
import proofs.«119824_j2070174236908_1_alg».proof.Proof.Gen.KernelIdeal.Frame
import proofs.«119824_j2070174236908_1_alg».proof.Proof.Gen.ReferenceIdeal
import proofs.«119824_j2070174236908_1_alg».proof.Proof.Gen.Pre_finite_inputs
import proofs.«119824_j2070174236908_1_alg».proof.Proof.Gen.KernelIdeal.Value
import proofs.«119824_j2070174236908_1_alg».proof.Proof.Gen.ReferenceIdeal.Run
import proofs.«119824_j2070174236908_1_alg».proof.Proof.Gen.ReferenceIdeal.Read
import proofs.«119824_j2070174236908_1_alg».proof.Proof.TwoLayer
import proofs.«119824_j2070174236908_1_alg».proof.Proof.RefValue
import proofs.«119824_j2070174236908_1_alg».proof.Proof.HostSide
import proofs.«119824_j2070174236908_1_alg».proof.Proof.WholeArray
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end as the two-layer function of
    the aggregated features, which the two programs compute by the same operations. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v32_eq _ _ _ _ _ _).trans ?_
  refine (Cert.ReferenceIdeal.RefValue.result_eq _ _ _ _ _ _).trans ?_
  rw [(hagree c).1, (hagree c).2.1, (hagree c).2.2.1, (hagree c).2.2.2.1, (hagree c).2.2.2.2.1, (hagree c).2.2.2.2.2]
  exact congrArg (fun a => Cert.TwoLayer.out a _ _ _ _) (Cert.KernelIdeal.HostSide.aggregated_array m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
